-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S640000x2 : Shape := ⟨2, ![640000, 2]⟩
abbrev S640000x4 : Shape := ⟨2, ![640000, 4]⟩
abbrev S260x256 : Shape := ⟨2, ![260, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S640000x4 : S_.BroadcastsInDim S640000x4 (![] : Fin 0 → Fin S640000x4.rank)
  reducesTo_S640000x4_S_d0_1 : S640000x4.ReducesTo [0, 1] S_
  bcast_S_S260x256 : S_.BroadcastsInDim S260x256 (![] : Fin 0 → Fin S260x256.rank)
  reducesTo_S260x256_S_d0_1 : S260x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256x1 .f32) (main_arg6 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S10000x128 .f32) (main_arg1 : IVec S640000x2 32) (main_arg2 : FVec F S640000x4 .f32) (main_arg3 : FVec F S260x256 .f32) (main_arg4 : FVec F S256 .f32) (main_arg5 : FVec F S256x1 .f32) (main_arg6 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S640000x4 .f32 := Host.absf main_arg2
  let main_cst_0 : FVec F S_ .f32 := constant S_ .f32 0x7F800000#32
  let main_v5 : FVec F S640000x4 .f32 := broadcastInDim S640000x4 ![] bcast_S_S640000x4 main_cst_0
  let main_v6 : IVec S640000x4 1 := cmpf .olt main_v4 main_v5
  let main_c_1 : IVec S_ 1 := constantI S_ 1 1#1
  let main_v7 : IVec S_ 1 := (fun x v => Host.reduce IntOp.andi x v reducesTo_S640000x4_S_d0_1 h_S_) main_v6 main_c_1
  let main_v8 : IVec S_ 1 := andi main_v3 main_v7
  let main_v9 : FVec F S260x256 .f32 := Host.absf main_arg3
  let main_cst_2 : FVec F S_ .f32 := constant S_ .f32 0x7F800000#32
  let main_v10 : FVec F S260x256 .f32 := broadcastInDim S260x256 ![] bcast_S_S260x256 main_cst_2
  let main_v11 : IVec S260x256 1 := cmpf .olt main_v9 main_v10
  let main_c_3 : IVec S_ 1 := constantI S_ 1 1#1
  let main_v12 : IVec S_ 1 := (fun x v => Host.reduce IntOp.andi x v reducesTo_S260x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S10000x128 : Shape := ⟨2, ![10000, 128]⟩
abbrev S640000x2 : Shape := ⟨2, ![640000, 2]⟩
abbrev S640000x4 : Shape := ⟨2, ![640000, 4]⟩
abbrev S260x256 : Shape := ⟨2, ![260, 256]⟩
abbrev S256 : Shape := ⟨1, ![256]⟩
abbrev S256x1 : Shape := ⟨2, ![256, 1]⟩
abbrev S1 : Shape := ⟨1, ![1]⟩
abbrev S640000x1 : Shape := ⟨2, ![640000, 1]⟩
abbrev S640000 : Shape := ⟨1, ![640000]⟩
abbrev S_ : Shape := ⟨0, ![]⟩
abbrev S640000x128 : Shape := ⟨2, ![640000, 128]⟩
abbrev S128x256 : Shape := ⟨2, ![128, 256]⟩
abbrev S4x256 : Shape := ⟨2, ![4, 256]⟩
abbrev S1x256 : Shape := ⟨2, ![1, 256]⟩
abbrev S1x1 : Shape := ⟨2, ![1, 1]⟩
abbrev S5120x128 : Shape := ⟨2, ![5120, 128]⟩
abbrev S5120x4 : Shape := ⟨2, ![5120, 4]⟩
abbrev S5120x1 : Shape := ⟨2, ![5120, 1]⟩
abbrev S5120x256 : Shape := ⟨2, ![5120, 256]⟩

abbrev nBuf : Space → Nat
  | .hbm => 35
  | .vmem => 14
  | .smem => 0
  | _ => 0

abbrev bufTy : (tb : Table) → Fin (tcTables nBuf tb) → BufTy
  | .hbm, ⟨0, _⟩ => ⟨S10000x128, .f32⟩
  | .hbm, ⟨1, _⟩ => ⟨S640000x2, .i32⟩
  | .hbm, ⟨2, _⟩ => ⟨S640000x4, .f32⟩
  | .hbm, ⟨3, _⟩ => ⟨S260x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S640000x1, .i32⟩
  | .hbm, ⟨8, _⟩ => ⟨S640000, .i32⟩
  | .hbm, ⟨9, _⟩ => ⟨S640000x1, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S128x256, .f32⟩
  | .hbm, ⟨30, _⟩ => ⟨S128x256, .f32⟩
  | .hbm, ⟨31, _⟩ => ⟨S4x256, .f32⟩
  | .hbm, ⟨32, _⟩ => ⟨S1x256, .f32⟩
  | .hbm, ⟨33, _⟩ => ⟨S1x1, .f32⟩
  | .hbm, ⟨34, _⟩ => ⟨S640000x1, .f32⟩
  | .local _ .vmem, ⟨0, _⟩ => ⟨S5120x128, .f32⟩
  | .local _ .vmem, ⟨1, _⟩ => ⟨S5120x128, .f32⟩
  | .local _ .vmem, ⟨2, _⟩ => ⟨S5120x128, .f32⟩
  | .local _ .vmem, ⟨3, _⟩ => ⟨S5120x128, .f32⟩
  | .local _ .vmem, ⟨4, _⟩ => ⟨S5120x4, .f32⟩
  | .local _ .vmem, ⟨5, _⟩ => ⟨S5120x4, .f32⟩
  | .local _ .vmem, ⟨6, _⟩ => ⟨S128x256, .f32⟩
  | .local _ .vmem, ⟨7, _⟩ => ⟨S128x256, .f32⟩
  | .local _ .vmem, ⟨8, _⟩ => ⟨S4x256, .f32⟩
  | .local _ .vmem, ⟨9, _⟩ => ⟨S1x256, .f32⟩
  | .local _ .vmem, ⟨10, _⟩ => ⟨S256x1, .f32⟩
  | .local _ .vmem, ⟨11, _⟩ => ⟨S1x1, .f32⟩
  | .local _ .vmem, ⟨12, _⟩ => ⟨S5120x1, .f32⟩
  | .local _ .vmem, ⟨13, _⟩ => ⟨S5120x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5120x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5120x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S640000x2_S640000x1_0_0 : S640000x2.Slices ![0, 0] S640000x1
  shapeCasts_S640000x1_S640000 : S640000x1.ShapeCasts S640000
  slices_S640000x2_S640000x1_0_1 : S640000x2.Slices ![0, 1] S640000x1
  bcast_S_S640000 : S_.BroadcastsInDim S640000 (![] : Fin 0 → Fin S640000.rank)
  bcast_S640000_S640000x1_0 : S640000.BroadcastsInDim S640000x1 (![0] : Fin 1 → Fin S640000x1.rank)
  slices_S260x256_S128x256_0_0 : S260x256.Slices ![0, 0] S128x256
  slices_S260x256_S128x256_128_0 : S260x256.Slices ![128, 0] S128x256
  slices_S260x256_S4x256_256_0 : S260x256.Slices ![256, 0] S4x256
  shapeCasts_S256_S1x256 : S256.ShapeCasts S1x256
  shapeCasts_S1_S1x1 : S1.ShapeCasts S1x1
  inb_S5120x128_S5120x128_0_0 : ∀ a, (![0, 0] : Fin 2 → Nat) a + S5120x128.size a ≤ S5120x128.size a
  h_S5120x128 : 0 < S5120x128.numel
  shapeCasts_S5120x128_S5120x128 : S5120x128.ShapeCasts S5120x128
  bitsLt_bf16_f32 : FTy.bits .bf16 < FTy.bits .f32
  inb_S5120x4_S5120x4_0_0 : ∀ a, (![0, 0] : Fin 2 → Nat) a + S5120x4.size a ≤ S5120x4.size a
  h_S5120x4 : 0 < S5120x4.numel
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S5120x256 : S1x256.Broadcasts S5120x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5120x1 : S1x1.Broadcasts S5120x1
  inb_S5120x1_S5120x1_0_0 : ∀ a, (![0, 0] : Fin 2 → Nat) a + S5120x1.size a ≤ S5120x1.size a
  h_S5120x1 : 0 < S5120x1.numel
  gather_S10000x128_S640000x1_S640000x128_1_0_n_n_0_1_1128_wf : GatherDims.WF S10000x128 S640000x1 S640000x128 [1] [0] [] [0] [] 1 ![1, 128]
  dot_S5120x128_S128x256_S5120x256_1_0_0_1_n_n_wf : DotDims.WF S5120x128 S128x256 S5120x256 [1] [0] [0] [1] [] []
  dot_S5120x4_S4x256_S5120x256_1_0_0_1_n_n_wf : DotDims.WF S5120x4 S4x256 S5120x256 [1] [0] [0] [1] [] []
  dot_S5120x256_S256x1_S5120x1_1_0_0_1_n_n_wf : DotDims.WF S5120x256 S256x1 S5120x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .f32 = 32 ∨ (Rect.block (s := S640000x128) S5120x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .f32 = 32 ∨ (Rect.block (s := S640000x128) S5120x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5120x4.size a ≤ S640000x4.size a
  hwx0_2 : ∀ i : grid0.Coords, EltTy.bits .f32 = 32 ∨ (Rect.block (s := S640000x4) S5120x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x256.size a ≤ S128x256.size a
  hwx0_4 : ∀ i : grid0.Coords, EltTy.bits .f32 = 32 ∨ (Rect.block (s := S128x256) S128x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x256.size a ≤ S4x256.size a
  hwx0_5 : ∀ i : grid0.Coords, EltTy.bits .f32 = 32 ∨ (Rect.block (s := S4x256) S4x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5120x1.size a ≤ S640000x1.size a
  hwx0_9 : ∀ i : grid0.Coords, EltTy.bits .f32 = 32 ∨ (Rect.block (s := S640000x1) S5120x1.size (cc0_transform_9 i) (hinb0_9 i)).WholeWords (EltTy.packing .f32)

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S5120x128_S128x256_S5120x256_1_0_0_1_n_n : DotDims S5120x128 S128x256 S5120x256 where
  lhsContracting := [1]
  rhsContracting := [0]
  lhsNonContracting := [0]
  rhsNonContracting := [1]
  lhsBatch := []
  rhsBatch := []
  wf := dot_S5120x128_S128x256_S5120x256_1_0_0_1_n_n_wf
def dot_S5120x4_S4x256_S5120x256_1_0_0_1_n_n : DotDims S5120x4 S4x256 S5120x256 where
  lhsContracting := [1]
  rhsContracting := [0]
  lhsNonContracting := [0]
  rhsNonContracting := [1]
  lhsBatch := []
  rhsBatch := []
  wf := dot_S5120x4_S4x256_S5120x256_1_0_0_1_n_n_wf
def dot_S5120x256_S256x1_S5120x1_1_0_0_1_n_n : DotDims S5120x256 S256x1 S5120x1 where
  lhsContracting := [1]
  rhsContracting := [0]
  lhsNonContracting := [0]
  rhsNonContracting := [1]
  lhsBatch := []
  rhsBatch := []
  wf := dot_S5120x256_S256x1_S5120x1_1_0_0_1_n_n_wf

abbrev win0_0 : Pipeline.Window sig grid0 :=
  Pipeline.Window.ofSpec (Memref.whole main_v10) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S5120x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v18) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S4x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v21) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v22) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S5120x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S10000x128 : Shape := ⟨2, ![10000, 128]⟩
abbrev S640000x2 : Shape := ⟨2, ![640000, 2]⟩
abbrev S640000x4 : Shape := ⟨2, ![640000, 4]⟩
abbrev S260x256 : Shape := ⟨2, ![260, 256]⟩
abbrev S256 : Shape := ⟨1, ![256]⟩
abbrev S256x1 : Shape := ⟨2, ![256, 1]⟩
abbrev S1 : Shape := ⟨1, ![1]⟩
abbrev S640000x1 : Shape := ⟨2, ![640000, 1]⟩
abbrev S640000 : Shape := ⟨1, ![640000]⟩
abbrev S_ : Shape := ⟨0, ![]⟩
abbrev S640000x128 : Shape := ⟨2, ![640000, 128]⟩
abbrev S640000x260 : Shape := ⟨2, ![640000, 260]⟩
abbrev S640000x256 : Shape := ⟨2, ![640000, 256]⟩
abbrev S1x256 : Shape := ⟨2, ![1, 256]⟩
abbrev S1x1 : Shape := ⟨2, ![1, 1]⟩

abbrev nBuf : Space → Nat
  | .hbm => 49
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S640000x2, .i32⟩
  | .hbm, ⟨2, _⟩ => ⟨S640000x4, .f32⟩
  | .hbm, ⟨3, _⟩ => ⟨S260x256, .f32⟩
  | .hbm, ⟨4, _⟩ => ⟨S256, .f32⟩
  | .hbm, ⟨5, _⟩ => ⟨S256x1, .f32⟩
  | .hbm, ⟨6, _⟩ => ⟨S1, .f32⟩
  | .hbm, ⟨7, _⟩ => ⟨S640000x1, .i32⟩
  | .hbm, ⟨8, _⟩ => ⟨S640000, .i32⟩
  | .hbm, ⟨9, _⟩ => ⟨S640000x1, .i32⟩
  | .hbm, ⟨10, _⟩ => ⟨S640000, .i32⟩
  | .hbm, ⟨11, _⟩ => ⟨S_, .i32⟩
  | .hbm, ⟨12, _⟩ => ⟨S640000, .i32⟩
  | .hbm, ⟨13, _⟩ => ⟨S640000, .i1⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S640000, .i32⟩
  | .hbm, ⟨18, _⟩ => ⟨S640000x1, .i32⟩
  | .hbm, ⟨19, _⟩ => ⟨S640000x128, .f32⟩
  | .hbm, ⟨20, _⟩ => ⟨S_, .i32⟩
  | .hbm, ⟨21, _⟩ => ⟨S640000, .i32⟩
  | .hbm, ⟨22, _⟩ => ⟨S640000, .i1⟩
  | .hbm, ⟨23, _⟩ => ⟨S_, .i32⟩
  | .hbm, ⟨24, _⟩ => ⟨S640000, .i32⟩
  | .hbm, ⟨25, _⟩ => ⟨S640000, .i32⟩
  | .hbm, ⟨26, _⟩ => ⟨S640000, .i32⟩
  | .hbm, ⟨27, _⟩ => ⟨S640000x1, .i32⟩
  | .hbm, ⟨28, _⟩ => ⟨S640000x128, .f32⟩
  | .hbm, ⟨29, _⟩ => ⟨S640000x260, .f32⟩
  | .hbm, ⟨30, _⟩ => ⟨S640000x256, .f32⟩
  | .hbm, ⟨31, _⟩ => ⟨S1x256, .f32⟩
  | .hbm, ⟨32, _⟩ => ⟨S640000x256, .f32⟩
  | .hbm, ⟨33, _⟩ => ⟨S640000x256, .f32⟩
  | .hbm, ⟨34, _⟩ => ⟨S_, .f32⟩
  | .hbm, ⟨35, _⟩ => ⟨S640000x256, .f32⟩
  | .hbm, ⟨36, _⟩ => ⟨S640000x256, .f32⟩
  | .hbm, ⟨37, _⟩ => ⟨S640000x1, .f32⟩
  | .hbm, ⟨38, _⟩ => ⟨S1x1, .f32⟩
  | .hbm, ⟨39, _⟩ => ⟨S640000x1, .f32⟩
  | .hbm, ⟨40, _⟩ => ⟨S640000x1, .f32⟩
  | .hbm, ⟨41, _⟩ => ⟨S640000x1, .f32⟩
  | .hbm, ⟨42, _⟩ => ⟨S640000x1, .f32⟩
  | .hbm, ⟨43, _⟩ => ⟨S_, .f32⟩
  | .hbm, ⟨44, _⟩ => ⟨S640000x1, .f32⟩
  | .hbm, ⟨45, _⟩ => ⟨S640000x1, .f32⟩
  | .hbm, ⟨46, _⟩ => ⟨S_, .f32⟩
  | .hbm, ⟨47, _⟩ => ⟨S640000x1, .f32⟩
  | .hbm, ⟨48, _⟩ => ⟨S640000x1, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst : Ref sig .tc := ⟨.hbm, 43, rfl⟩
abbrev main_v30 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]

class Facts₀ : Prop where
  slices_S640000x2_S640000x1_0_0 : S640000x2.Slices ![0, 0] S640000x1
  shapeCasts_S640000x1_S640000 : S640000x1.ShapeCasts S640000
  slices_S640000x2_S640000x1_0_1 : S640000x2.Slices ![0, 1] S640000x1
  bcast_S_S640000 : S_.BroadcastsInDim S640000 (![] : Fin 0 → Fin S640000.rank)
  bcast_S640000_S640000x1_0 : S640000.BroadcastsInDim S640000x1 (![0] : Fin 1 → Fin S640000x1.rank)
  concatenates_S640000x128_S640000x128_S640000x4_S640000x260_d1 : Shape.Concatenates [S640000x128, S640000x128, S640000x4] S640000x260 1
  bcast_S256_S1x256_1 : S256.BroadcastsInDim S1x256 (![1] : Fin 1 → Fin S1x256.rank)
  bcast_S1x256_S640000x256_0_1 : S1x256.BroadcastsInDim S640000x256 (![0, 1] : Fin 2 → Fin S640000x256.rank)
  bcast_S_S640000x256 : S_.BroadcastsInDim S640000x256 (![] : Fin 0 → Fin S640000x256.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  bcast_S_S640000x1 : S_.BroadcastsInDim S640000x1 (![] : Fin 0 → Fin S640000x1.rank)
  gather_S10000x128_S640000x1_S640000x128_1_0_n_n_0_1_1128_wf : GatherDims.WF S10000x128 S640000x1 S640000x128 [1] [0] [] [0] [] 1 ![1, 128]
  dot_S640000x260_S260x256_S640000x256_1_0_0_1_n_n_wf : DotDims.WF S640000x260 S260x256 S640000x256 [1] [0] [0] [1] [] []
  dot_S640000x256_S256x1_S640000x1_1_0_0_1_n_n_wf : DotDims.WF S640000x256 S256x1 S640000x1 [1] [0] [0] [1] [] []

variable [Facts₀]

def gather_S10000x128_S640000x1_S640000x128_1_0_n_n_0_1_1128 : GatherDims S10000x128 S640000x1 S640000x128 where
  offsetDims := [1]
  collapsedSliceDims := [0]
  operandBatchingDims := []
  startIndicesBatchingDims := []
  startIndexMap := [0]
  indexVectorDim := 1
  sliceSizes := ![1, 128]
  wf := gather_S10000x128_S640000x1_S640000x128_1_0_n_n_0_1_1128_wf
def dot_S640000x260_S260x256_S640000x256_1_0_0_1_n_n : DotDims S640000x260 S260x256 S640000x256 where
  lhsContracting := [1]
  rhsContracting := [0]
  lhsNonContracting := [0]
  rhsNonContracting := [1]
  lhsBatch := []
  rhsBatch := []
  wf := dot_S640000x260_S260x256_S640000x256_1_0_0_1_n_n_wf
def dot_S640000x256_S256x1_S640000x1_1_0_0_1_n_n : DotDims S640000x256 S256x1 S640000x1 where
  lhsContracting := [1]
  rhsContracting := [0]
  lhsNonContracting := [0]
  rhsNonContracting := [1]
  lhsBatch := []
  rhsBatch := []
  wf := dot_S640000x256_S256x1_S640000x1_1_0_0_1_n_n_wf

class Facts : Prop extends Facts₀ where

variable [Facts]
-- ==== Proof.BlockProducts.lean ====
/-
  The three block products of the kernel body, read at an entry.

  On the extended reals a block product into a zero accumulator is the plain sum of products over the
  contracted axis: entry (r, c) of an [M, K] block times a [K, N] block is Σ_{k<K} l[r, k] · r[k, c]. The three
  shapes are the endpoint-feature product [5120, 128]·[128, 256], the distance-feature product
  [5120, 4]·[4, 256] and the second layer [5120, 256]·[256, 1].
-/
import proofs.«122845_j50568944943204_1_alg».proof.Proof.Gen.KernelIdeal.Skeleton
import Idealize.ShloMosaic.Lib.ValueIdx
import Idealize.ShloMosaic.PureOps.Ideal.Laws

noncomputable section

namespace Cert.KernelIdeal.BlockProducts

open Cert.KernelIdeal Cert.KernelIdeal.Gen Idealize.ShloMosaic Idealize.ShloMosaic.ValueIdx

/-! ### [5120, 128] · [128, 256] -/

theorem lhs_feat_0 (i : S5120x256.Idx) (q : dot_S5120x128_S128x256_S5120x256_1_0_0_1_n_n.contr.Idx) :
    (dot_S5120x128_S128x256_S5120x256_1_0_0_1_n_n.lhsIdx i q 0).val = (i 0).val := by
  unfold DotDims.lhsIdx
  rw [dif_neg (show ¬(0 : Fin S5120x128.rank) ∈ dot_S5120x128_S128x256_S5120x256_1_0_0_1_n_n.lhsBatch by decide), dif_pos (show (0 : Fin S5120x128.rank) ∈ dot_S5120x128_S128x256_S5120x256_1_0_0_1_n_n.lhsNonContracting by decide)]
  rfl
theorem lhs_feat_1 (i : S5120x256.Idx) (q : dot_S5120x128_S128x256_S5120x256_1_0_0_1_n_n.contr.Idx) :
    (dot_S5120x128_S128x256_S5120x256_1_0_0_1_n_n.lhsIdx i q 1).val = (q ⟨0, by decide⟩).val :=
  dot_S5120x128_S128x256_S5120x256_1_0_0_1_n_n.lhsIdx_val_of_single rfl i q
theorem rhs_feat_0 (i : S5120x256.Idx) (q : dot_S5120x128_S128x256_S5120x256_1_0_0_1_n_n.contr.Idx) :
    (dot_S5120x128_S128x256_S5120x256_1_0_0_1_n_n.rhsIdx i q 0).val = (q ⟨0, by decide⟩).val :=
  dot_S5120x128_S128x256_S5120x256_1_0_0_1_n_n.rhsIdx_val_of_single rfl i q
theorem rhs_feat_1 (i : S5120x256.Idx) (q : dot_S5120x128_S128x256_S5120x256_1_0_0_1_n_n.contr.Idx) :
    (dot_S5120x128_S128x256_S5120x256_1_0_0_1_n_n.rhsIdx i q 1).val = (i 1).val := by
  unfold DotDims.rhsIdx
  rw [dif_neg (show ¬(1 : Fin S128x256.rank) ∈ dot_S5120x128_S128x256_S5120x256_1_0_0_1_n_n.rhsBatch by decide), dif_pos (show (1 : Fin S128x256.rank) ∈ dot_S5120x128_S128x256_S5120x256_1_0_0_1_n_n.rhsNonContracting by decide)]
  rfl

/-- Entry (r, c) of the endpoint-feature product: Σ_{j<128} l[r, j] · w[j, c]. -/
theorem feat_apply {φ₁ φ₂ : FTy} (l : FVec Ideal S5120x128 φ₁) (w : FVec Ideal S128x256 φ₂) (r : Fin 5120) (c : Fin 256) :
    matmul dot_S5120x128_S128x256_S5120x256_1_0_0_1_n_n none l w (constant (F := Ideal) S5120x256 .f32 0x00000000#32) (ix2 r c)
      = ∑ j : Fin 128, l (ix2 r j) * w (ix2 j c) := by
  simp only [matmul]
  rw [Ideal.matmul_constant_zero_apply, ← Equiv.sum_comp (contrEquiv1 dot_S5120x128_S128x256_S5120x256_1_0_0_1_n_n 128 rfl rfl).symm]
  refine Finset.sum_congr rfl fun k _ => ?_
  have hk := contrEquiv1_symm_val dot_S5120x128_S128x256_S5120x256_1_0_0_1_n_n 128 rfl rfl k
  have el : dot_S5120x128_S128x256_S5120x256_1_0_0_1_n_n.lhsIdx (ix2 r c) ((contrEquiv1 dot_S5120x128_S128x256_S5120x256_1_0_0_1_n_n 128 rfl rfl).symm k) = ix2 r k := funext fun a => Fin.ext (by
    match a with
    | ⟨0, _⟩ => exact lhs_feat_0 _ _
    | ⟨1, _⟩ => exact (lhs_feat_1 _ _).trans hk)
  have er : dot_S5120x128_S128x256_S5120x256_1_0_0_1_n_n.rhsIdx (ix2 r c) ((contrEquiv1 dot_S5120x128_S128x256_S5120x256_1_0_0_1_n_n 128 rfl rfl).symm k) = ix2 k c := funext fun a => Fin.ext (by
    match a with
    | ⟨0, _⟩ => exact (rhs_feat_0 _ _).trans hk
    | ⟨1, _⟩ => exact rhs_feat_1 _ _)
  rw [el, er]

/-! ### [5120, 4] · [4, 256] -/

theorem lhs_dist_0 (i : S5120x256.Idx) (q : dot_S5120x4_S4x256_S5120x256_1_0_0_1_n_n.contr.Idx) :
    (dot_S5120x4_S4x256_S5120x256_1_0_0_1_n_n.lhsIdx i q 0).val = (i 0).val := by
  unfold DotDims.lhsIdx
  rw [dif_neg (show ¬(0 : Fin S5120x4.rank) ∈ dot_S5120x4_S4x256_S5120x256_1_0_0_1_n_n.lhsBatch by decide), dif_pos (show (0 : Fin S5120x4.rank) ∈ dot_S5120x4_S4x256_S5120x256_1_0_0_1_n_n.lhsNonContracting by decide)]
  rfl
theorem lhs_dist_1 (i : S5120x256.Idx) (q : dot_S5120x4_S4x256_S5120x256_1_0_0_1_n_n.contr.Idx) :
    (dot_S5120x4_S4x256_S5120x256_1_0_0_1_n_n.lhsIdx i q 1).val = (q ⟨0, by decide⟩).val :=
  dot_S5120x4_S4x256_S5120x256_1_0_0_1_n_n.lhsIdx_val_of_single rfl i q
theorem rhs_dist_0 (i : S5120x256.Idx) (q : dot_S5120x4_S4x256_S5120x256_1_0_0_1_n_n.contr.Idx) :
    (dot_S5120x4_S4x256_S5120x256_1_0_0_1_n_n.rhsIdx i q 0).val = (q ⟨0, by decide⟩).val :=
  dot_S5120x4_S4x256_S5120x256_1_0_0_1_n_n.rhsIdx_val_of_single rfl i q
theorem rhs_dist_1 (i : S5120x256.Idx) (q : dot_S5120x4_S4x256_S5120x256_1_0_0_1_n_n.contr.Idx) :
    (dot_S5120x4_S4x256_S5120x256_1_0_0_1_n_n.rhsIdx i q 1).val = (i 1).val := by
  unfold DotDims.rhsIdx
  rw [dif_neg (show ¬(1 : Fin S4x256.rank) ∈ dot_S5120x4_S4x256_S5120x256_1_0_0_1_n_n.rhsBatch by decide), dif_pos (show (1 : Fin S4x256.rank) ∈ dot_S5120x4_S4x256_S5120x256_1_0_0_1_n_n.rhsNonContracting by decide)]
  rfl

/-- Entry (r, c) of the distance-feature product: Σ_{j<4} l[r, j] · w[j, c]. -/
theorem dist_apply {φ₁ φ₂ : FTy} (l : FVec Ideal S5120x4 φ₁) (w : FVec Ideal S4x256 φ₂) (r : Fin 5120) (c : Fin 256) :
    matmul dot_S5120x4_S4x256_S5120x256_1_0_0_1_n_n none l w (constant (F := Ideal) S5120x256 .f32 0x00000000#32) (ix2 r c)
      = ∑ j : Fin 4, l (ix2 r j) * w (ix2 j c) := by
  simp only [matmul]
  rw [Ideal.matmul_constant_zero_apply, ← Equiv.sum_comp (contrEquiv1 dot_S5120x4_S4x256_S5120x256_1_0_0_1_n_n 4 rfl rfl).symm]
  refine Finset.sum_congr rfl fun k _ => ?_
  have hk := contrEquiv1_symm_val dot_S5120x4_S4x256_S5120x256_1_0_0_1_n_n 4 rfl rfl k
  have el : dot_S5120x4_S4x256_S5120x256_1_0_0_1_n_n.lhsIdx (ix2 r c) ((contrEquiv1 dot_S5120x4_S4x256_S5120x256_1_0_0_1_n_n 4 rfl rfl).symm k) = ix2 r k := funext fun a => Fin.ext (by
    match a with
    | ⟨0, _⟩ => exact lhs_dist_0 _ _
    | ⟨1, _⟩ => exact (lhs_dist_1 _ _).trans hk)
  have er : dot_S5120x4_S4x256_S5120x256_1_0_0_1_n_n.rhsIdx (ix2 r c) ((contrEquiv1 dot_S5120x4_S4x256_S5120x256_1_0_0_1_n_n 4 rfl rfl).symm k) = ix2 k c := funext fun a => Fin.ext (by
    match a with
    | ⟨0, _⟩ => exact (rhs_dist_0 _ _).trans hk
    | ⟨1, _⟩ => exact rhs_dist_1 _ _)
  rw [el, er]

/-! ### [5120, 256] · [256, 1] -/

theorem lhs_out_0 (i : S5120x1.Idx) (q : dot_S5120x256_S256x1_S5120x1_1_0_0_1_n_n.contr.Idx) :
    (dot_S5120x256_S256x1_S5120x1_1_0_0_1_n_n.lhsIdx i q 0).val = (i 0).val := by
  unfold DotDims.lhsIdx
  rw [dif_neg (show ¬(0 : Fin S5120x256.rank) ∈ dot_S5120x256_S256x1_S5120x1_1_0_0_1_n_n.lhsBatch by decide), dif_pos (show (0 : Fin S5120x256.rank) ∈ dot_S5120x256_S256x1_S5120x1_1_0_0_1_n_n.lhsNonContracting by decide)]
  rfl
theorem lhs_out_1 (i : S5120x1.Idx) (q : dot_S5120x256_S256x1_S5120x1_1_0_0_1_n_n.contr.Idx) :
    (dot_S5120x256_S256x1_S5120x1_1_0_0_1_n_n.lhsIdx i q 1).val = (q ⟨0, by decide⟩).val :=
  dot_S5120x256_S256x1_S5120x1_1_0_0_1_n_n.lhsIdx_val_of_single rfl i q
theorem rhs_out_0 (i : S5120x1.Idx) (q : dot_S5120x256_S256x1_S5120x1_1_0_0_1_n_n.contr.Idx) :
    (dot_S5120x256_S256x1_S5120x1_1_0_0_1_n_n.rhsIdx i q 0).val = (q ⟨0, by decide⟩).val :=
  dot_S5120x256_S256x1_S5120x1_1_0_0_1_n_n.rhsIdx_val_of_single rfl i q
theorem rhs_out_1 (i : S5120x1.Idx) (q : dot_S5120x256_S256x1_S5120x1_1_0_0_1_n_n.contr.Idx) :
    (dot_S5120x256_S256x1_S5120x1_1_0_0_1_n_n.rhsIdx i q 1).val = (i 1).val := by
  unfold DotDims.rhsIdx
  rw [dif_neg (show ¬(1 : Fin S256x1.rank) ∈ dot_S5120x256_S256x1_S5120x1_1_0_0_1_n_n.rhsBatch by decide), dif_pos (show (1 : Fin S256x1.rank) ∈ dot_S5120x256_S256x1_S5120x1_1_0_0_1_n_n.rhsNonContracting by decide)]
  rfl

/-- Entry (r, c) of the second layer's product: Σ_{k<256} h[r, k] · w[k, c]. -/
theorem out_apply {φ₁ φ₂ : FTy} (h : FVec Ideal S5120x256 φ₁) (w : FVec Ideal S256x1 φ₂) (r : Fin 5120) (c : Fin 1) :
    matmul dot_S5120x256_S256x1_S5120x1_1_0_0_1_n_n none h w (constant (F := Ideal) S5120x1 .f32 0x00000000#32) (ix2 r c)
      = ∑ k : Fin 256, h (ix2 r k) * w (ix2 k c) := by
  simp only [matmul]
  rw [Ideal.matmul_constant_zero_apply, ← Equiv.sum_comp (contrEquiv1 dot_S5120x256_S256x1_S5120x1_1_0_0_1_n_n 256 rfl rfl).symm]
  refine Finset.sum_congr rfl fun k _ => ?_
  have hk := contrEquiv1_symm_val dot_S5120x256_S256x1_S5120x1_1_0_0_1_n_n 256 rfl rfl k
  have el : dot_S5120x256_S256x1_S5120x1_1_0_0_1_n_n.lhsIdx (ix2 r c) ((contrEquiv1 dot_S5120x256_S256x1_S5120x1_1_0_0_1_n_n 256 rfl rfl).symm k) = ix2 r k := funext fun a => Fin.ext (by
    match a with
    | ⟨0, _⟩ => exact lhs_out_0 _ _
    | ⟨1, _⟩ => exact (lhs_out_1 _ _).trans hk)
  have er : dot_S5120x256_S256x1_S5120x1_1_0_0_1_n_n.rhsIdx (ix2 r c) ((contrEquiv1 dot_S5120x256_S256x1_S5120x1_1_0_0_1_n_n 256 rfl rfl).symm k) = ix2 k c := funext fun a => Fin.ext (by
    match a with
    | ⟨0, _⟩ => exact (rhs_out_0 _ _).trans hk
    | ⟨1, _⟩ => exact rhs_out_1 _ _)
  rw [el, er]

end Cert.KernelIdeal.BlockProducts

end
-- ==== Proof.BlockValue.lean ====
/-
  One block of scores from the blocks the body loads, entry by entry.

  With x0, x1 the two endpoint-feature blocks, x2 the distance block, x3, x4, x5 the three bands of the first
  weight matrix, x6 and x8 the bias rows and x7 the second weight column, entry (r, 0) of the block the body stores is

      logistic( Σ_{k<256} max( Σ_j x0[r,j]·x3[j,k] + Σ_j x1[r,j]·x4[j,k] + Σ_j x2[r,j]·x5[j,k] + x6[0,k], 0 ) · x7[k,0] + x8[0,0] ).

  Narrowing to sixteen bits and widening back are the identity on the extended reals, a shape cast to the same
  shape is the identity, and each block product into zeros is the plain sum of products.
-/
import proofs.«122845_j50568944943204_1_alg».proof.Proof.BlockProducts
import Idealize.ShloMosaic.Lib.Pipeline.Value

noncomputable section

namespace Cert.KernelIdeal.BlockValue

open Cert.KernelIdeal Cert.KernelIdeal.Gen Cert.KernelIdeal.BlockProducts Idealize.ShloMosaic Idealize.ShloMosaic.ValueIdx

/-- The first-layer bias, a single row, laid down the 5120 rows of the block: entry (r, k) is the row's entry k. -/
theorem biasRow_apply (x6 : FVec Ideal S1x256 .f32) (r : Fin 5120) (k : Fin 256) :
    broadcastTo S5120x256 x6 broadcasts_S1x256_S5120x256 (ix2 r k) = x6 (ix2 0 k) :=
  broadcastTo_apply x6 broadcasts_S1x256_S5120x256 (ix2 r k) (ix2 0 k) (fun a => match a with
    | ⟨0, _⟩ => by show 0 = if (1 : Nat) = 1 then 0 else r.val; rw [if_pos rfl]
    | ⟨1, _⟩ => by show k.val = if (256 : Nat) = 1 then 0 else k.val; rw [if_neg (by decide)])

/-- The second-layer bias, a single entry, laid down the 5120 rows of the block. -/
theorem biasOut_apply (x8 : FVec Ideal S1x1 .f32) (r : Fin 5120) (q : Fin 1) :
    broadcastTo S5120x1 x8 broadcasts_S1x1_S5120x1 (ix2 r q) = x8 (ix2 0 0) :=
  broadcastTo_apply x8 broadcasts_S1x1_S5120x1 (ix2 r q) (ix2 0 0) (fun a => match a with
    | ⟨0, _⟩ => by show 0 = if (1 : Nat) = 1 then 0 else r.val; rw [if_pos rfl]
    | ⟨1, _⟩ => by show 0 = if (1 : Nat) = 1 then 0 else q.val; rw [if_pos rfl])

/-- Entry (r, q) of the block of scores the body stores, from the blocks it loads. -/
theorem pay_apply (x0 x1 : Vec Ideal S5120x128 .f32) (x2 : Vec Ideal S5120x4 .f32) (x3 x4 : Vec Ideal S128x256 .f32)
    (x5 : Vec Ideal S4x256 .f32) (x6 : Vec Ideal S1x256 .f32) (x7 : Vec Ideal S256x1 .f32) (x8 : Vec Ideal S1x1 .f32)
    (r : Fin 5120) (q : Fin 1) :
    k0_pay1 (k0_pay2 x0 x1 x2 x3 x4 x5 x6 x7 x8) (ix2 r q)
      = Ideal.logistic ((∑ k : Fin 256, max ((∑ j : Fin 128, x0 (ix2 r j) * x3 (ix2 j k)) + (∑ j : Fin 128, x1 (ix2 r j) * x4 (ix2 j k))
          + (∑ j : Fin 4, x2 (ix2 r j) * x5 (ix2 j k)) + x6 (ix2 0 k)) 0 * x7 (ix2 k q)) + x8 (ix2 0 0)) := by
  unfold k0_pay1 k0_pay2
  dsimp only
  simp only [shapeCast_self, logistic, Ideal.logistic_def, addf_apply, out_apply, biasOut_apply, truncf_apply, maximumf_apply,
    feat_apply, dist_apply, biasRow_apply, broadcast_apply, Ideal.ofBits_def, Ideal.ofBits_zero_f32]

end Cert.KernelIdeal.BlockValue

end
-- ==== Proof.EdgeMlp.lean ====
/-
  The edge scorer as one function of its arrays, and the one law of sums the comparison needs.

  For an edge e with gathered endpoint features r = rowF[e, ·] and s = colF[e, ·] (128 entries each) and distance
  features d = ed[e, ·] (4 entries), hidden unit k has pre-activation

      a(e, k) = Σ_{j<128} r_j · w1[j, k] + Σ_{j<128} s_j · w1[128 + j, k] + Σ_{j<4} d_j · w1[256 + j, k] + b1[k],

  the hidden activation is max(a(e, k), 0), and the edge's score is the logistic function of
  Σ_{k<256} max(a(e, k), 0) · w2[k, 0] + b2[0]. All arithmetic is on the extended reals.

  A product of the concatenated feature row [r, s, d] (260 entries) with w1 is the same number: a sum over
  260 indices splits into the sums over its first 128, its next 128 and its last 4 indices (`sum_fin260`),
  which uses only that addition is commutative and associative, so it holds with infinite entries too.
-/
import Idealize.ShloMosaic.PureOps.Ideal
import Idealize.ShloMosaic.Lib.ValueIdx

noncomputable section

namespace Cert.EdgeMlp

open Idealize.ShloMosaic Idealize.ShloMosaic.ValueIdx

/-- A sum over 260 indices is the sum over the first 128, plus the sum over the next 128, plus the sum over the last 4. -/
theorem sum_fin260 {M : Type*} [AddCommMonoid M] (f : Fin 260 → M) :
    ∑ k : Fin 260, f k
      = (∑ j : Fin 128, f ⟨j.val, by omega⟩) + (∑ j : Fin 128, f ⟨128 + j.val, by omega⟩)
        + ∑ j : Fin 4, f ⟨256 + j.val, by omega⟩ := by
  have h1 : (∑ k : Fin 260, f k) = (∑ i : Fin 256, f (Fin.castAdd 4 i)) + ∑ i : Fin 4, f (Fin.natAdd 256 i) :=
    Fin.sum_univ_add (a := 256) (b := 4) f
  have h2 : (∑ i : Fin 256, f (Fin.castAdd 4 i))
      = (∑ i : Fin 128, f (Fin.castAdd 4 (Fin.castAdd 128 i))) + ∑ i : Fin 128, f (Fin.castAdd 4 (Fin.natAdd 128 i)) :=
    Fin.sum_univ_add (a := 128) (b := 128) fun i => f (Fin.castAdd 4 i)
  rw [h1, h2]
  rfl

/-- Row `j` of the first, the second and the third band of the weight matrix's 260 rows. -/
abbrev band0 (j : Fin 128) : Fin 260 := ⟨j.val, by omega⟩
abbrev band1 (j : Fin 128) : Fin 260 := ⟨128 + j.val, by omega⟩
abbrev band2 (j : Fin 4) : Fin 260 := ⟨256 + j.val, by omega⟩

/-- The pre-activation of hidden unit `k` on edge `e`: the three partial products and the bias. -/
def preAct (rowF colF : (⟨2, ![640000, 128]⟩ : Shape).Idx → EReal) (ed : (⟨2, ![640000, 4]⟩ : Shape).Idx → EReal)
    (w1 : (⟨2, ![260, 256]⟩ : Shape).Idx → EReal) (b1 : (⟨1, ![256]⟩ : Shape).Idx → EReal)
    (e : Fin 640000) (k : Fin 256) : EReal :=
  (∑ j : Fin 128, rowF (ix2 e j) * w1 (ix2 (band0 j) k)) + (∑ j : Fin 128, colF (ix2 e j) * w1 (ix2 (band1 j) k))
    + (∑ j : Fin 4, ed (ix2 e j) * w1 (ix2 (band2 j) k)) + b1 (ix1 k)

/-- The score of every edge: the logistic function of the second layer applied to the rectified hidden layer. -/
def score (rowF colF : (⟨2, ![640000, 128]⟩ : Shape).Idx → EReal) (ed : (⟨2, ![640000, 4]⟩ : Shape).Idx → EReal)
    (w1 : (⟨2, ![260, 256]⟩ : Shape).Idx → EReal) (b1 : (⟨1, ![256]⟩ : Shape).Idx → EReal)
    (w2 : (⟨2, ![256, 1]⟩ : Shape).Idx → EReal) (b2 : (⟨1, ![1]⟩ : Shape).Idx → EReal) :
    (⟨2, ![640000, 1]⟩ : Shape).Idx → EReal := fun i =>
  Ideal.logistic ((∑ k : Fin 256, max (preAct rowF colF ed w1 b1 (i 0) k) 0 * w2 (ix2 k (i 1))) + b2 (ix1 (i 1)))

end Cert.EdgeMlp

end
-- ==== Proof.HostArrays.lean ====
/-
  The arrays the kernel region reads, as the host operations before it leave them.

  The three weight operands are bands of rows of the first weight matrix (rows 0–127, 128–255 and 256–259), and the
  two bias operands are the bias vectors recast as single rows; entry by entry each is an entry of an argument.
-/
import proofs.«122845_j50568944943204_1_alg».proof.Proof.Gen.KernelIdeal.Value
import proofs.«122845_j50568944943204_1_alg».proof.Proof.EdgeMlp
import Idealize.ShloMosaic.Lib.StableHlo.Run
import Idealize.ShloMosaic.Lib.Pipeline.Value
import Idealize.ShloMosaic.Lib.ValueIdx

noncomputable section

namespace Cert.KernelIdeal.HostArrays

open Cert.KernelIdeal Cert.KernelIdeal.Gen Idealize.ShloMosaic Idealize.ShloMosaic.TcCoe Idealize.SL.Sem
open Idealize.ShloMosaic.StableHlo Idealize.ShloMosaic.ValueIdx Cert.EdgeMlp

variable (m : (ℓ : Loc nD τ sig) → Buf (Elt Ideal) ℓ)

/-- The first weight operand is rows 0–127 of the weight matrix. -/
theorem band0_eq (c : Dev nD) : (V m c main_v18 : S128x256.Idx → EReal)
    = extractStridedSlice S128x256 ![0, 0] (m ((c : Thread nD τ).loc main_arg3)) slices_S260x256_S128x256_0_0 := by
  dsimp only [Gen.V, Gen.hostOps0]; after_results

theorem band0_apply (c : Dev nD) (j : Fin 128) (k : Fin 256) :
    (V m c main_v18 : S128x256.Idx → EReal) (ix2 j k) = (m ((c : Thread nD τ).loc main_arg3) : S260x256.Idx → EReal) (ix2 (band0 j) k) := by
  rw [band0_eq]
  exact extractStridedSlice_apply ![0, 0] _ slices_S260x256_S128x256_0_0 (ix2 j k) (ix2 (band0 j) k) (fun a => match a with
    | ⟨0, _⟩ => by show j.val = 0 + j.val; omega
    | ⟨1, _⟩ => by show k.val = 0 + k.val; omega)

/-- The second weight operand is rows 128–255 of the weight matrix. -/
theorem band1_eq (c : Dev nD) : (V m c main_v19 : S128x256.Idx → EReal)
    = extractStridedSlice S128x256 ![128, 0] (m ((c : Thread nD τ).loc main_arg3)) slices_S260x256_S128x256_128_0 := by
  dsimp only [Gen.V, Gen.hostOps0]; after_results

theorem band1_apply (c : Dev nD) (j : Fin 128) (k : Fin 256) :
    (V m c main_v19 : S128x256.Idx → EReal) (ix2 j k) = (m ((c : Thread nD τ).loc main_arg3) : S260x256.Idx → EReal) (ix2 (band1 j) k) := by
  rw [band1_eq]
  exact extractStridedSlice_apply ![128, 0] _ slices_S260x256_S128x256_128_0 (ix2 j k) (ix2 (band1 j) k) (fun a => match a with
    | ⟨0, _⟩ => by show 128 + j.val = 128 + j.val; rfl
    | ⟨1, _⟩ => by show k.val = 0 + k.val; omega)

/-- The third weight operand is rows 256–259 of the weight matrix. -/
theorem band2_eq (c : Dev nD) : (V m c main_v20 : S4x256.Idx → EReal)
    = extractStridedSlice S4x256 ![256, 0] (m ((c : Thread nD τ).loc main_arg3)) slices_S260x256_S4x256_256_0 := by
  dsimp only [Gen.V, Gen.hostOps0]; after_results

theorem band2_apply (c : Dev nD) (j : Fin 4) (k : Fin 256) :
    (V m c main_v20 : S4x256.Idx → EReal) (ix2 j k) = (m ((c : Thread nD τ).loc main_arg3) : S260x256.Idx → EReal) (ix2 (band2 j) k) := by
  rw [band2_eq]
  exact extractStridedSlice_apply ![256, 0] _ slices_S260x256_S4x256_256_0 (ix2 j k) (ix2 (band2 j) k) (fun a => match a with
    | ⟨0, _⟩ => by show 256 + j.val = 256 + j.val; rfl
    | ⟨1, _⟩ => by show k.val = 0 + k.val; omega)

/-- The first bias operand is the first bias vector as one row. -/
theorem bias1_eq (c : Dev nD) : (V m c main_v21 : S1x256.Idx → EReal)
    = shapeCast S1x256 (m ((c : Thread nD τ).loc main_arg4)) shapeCasts_S256_S1x256 := by
  dsimp only [Gen.V, Gen.hostOps0]; after_results; rfl

theorem bias1_apply (c : Dev nD) (k : Fin 256) :
    (V m c main_v21 : S1x256.Idx → EReal) (ix2 0 k) = (m ((c : Thread nD τ).loc main_arg4) : S256.Idx → EReal) (ix1 k) := by
  rw [bias1_eq]
  exact shapeCast_apply _ shapeCasts_S256_S1x256 (ix2 0 k) (ix1 k)
    (by rewrite [Shape.rowMajor_val_one, Shape.rowMajor_val_two]; show k.val = 0 * 256 + k.val; omega)

/-- The second bias operand is the second bias, a single number, as a one-by-one array. -/
theorem bias2_eq (c : Dev nD) : (V m c main_v22 : S1x1.Idx → EReal)
    = shapeCast S1x1 (m ((c : Thread nD τ).loc main_arg6)) shapeCasts_S1_S1x1 := by
  dsimp only [Gen.V, Gen.hostOps0]; after_results; rfl

theorem bias2_apply (c : Dev nD) :
    (V m c main_v22 : S1x1.Idx → EReal) (ix2 0 0) = (m ((c : Thread nD τ).loc main_arg6) : S1.Idx → EReal) (ix1 0) := by
  rw [bias2_eq]
  exact shapeCast_apply _ shapeCasts_S1_S1x1 (ix2 0 0) (ix1 0)
    (by rewrite [Shape.rowMajor_val_one, Shape.rowMajor_val_two]; rfl)

end Cert.KernelIdeal.HostArrays

end
-- ==== Proof.KernelScores.lean ====
/-
  The kernel's result array is the edge scorer.

  Grid point t handles edges 5120·t … 5120·t + 5119: its two feature blocks and its distance block are those rows of
  the gathered feature arrays and of the distance array, the weight and bias operands are fetched whole, and the block
  it writes back is rows 5120·t … of the result. Entry by entry that block is the scorer of the arrays the region
  reads (`BlockValue.pay_apply` with each loaded entry named), and the 125 blocks tile the 640000 rows.
-/
import proofs.«122845_j50568944943204_1_alg».proof.Proof.BlockValue
import proofs.«122845_j50568944943204_1_alg».proof.Proof.HostArrays

noncomputable section

namespace Cert.KernelIdeal.Scores

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.EdgeMlp Cert.KernelIdeal.HostArrays

variable (m : (ℓ : Loc nD τ sig) → Buf (Elt Ideal) ℓ) (ρ : Dev nD → PrngReg)

theorem hz : (![0, 0] : Fin 2 → Nat) = fun _ => 0 := funext fun a => by fin_cases a <;> rfl

theorem ix2_zero {n0 n1 : Nat} (a : Fin n0) (b : Fin n1) : (ix2 a b) 0 = a := rfl
theorem ix2_one {n0 n1 : Nat} (a : Fin n0) (b : Fin n1) : (ix2 a b) 1 = b := rfl

/-- One block of scores is the scorer at the block's rows, once every loaded entry is named as an entry of the arrays:
    row `r` of the three edge blocks is row `e` of the edge arrays, the weight blocks are the three bands of the
    weight matrix, and the bias blocks are the biases. -/
theorem block_eq (A0 A1 : (⟨2, ![640000, 128]⟩ : Shape).Idx → EReal) (A2 : (⟨2, ![640000, 4]⟩ : Shape).Idx → EReal)
    (w1 : (⟨2, ![260, 256]⟩ : Shape).Idx → EReal) (b1 : (⟨1, ![256]⟩ : Shape).Idx → EReal)
    (w2 : (⟨2, ![256, 1]⟩ : Shape).Idx → EReal) (b2 : (⟨1, ![1]⟩ : Shape).Idx → EReal)
    (x0 x1 : Vec Ideal S5120x128 .f32) (x2 : Vec Ideal S5120x4 .f32) (x3 x4 : Vec Ideal S128x256 .f32)
    (x5 : Vec Ideal S4x256 .f32) (x6 : Vec Ideal S1x256 .f32) (x7 : Vec Ideal S256x1 .f32) (x8 : Vec Ideal S1x1 .f32)
    (e : Fin 640000) (r : Fin 5120) (q : Fin 1)
    (e0 : ∀ j, x0 (ix2 r j) = A0 (ix2 e j)) (e1 : ∀ j, x1 (ix2 r j) = A1 (ix2 e j)) (e2 : ∀ j, x2 (ix2 r j) = A2 (ix2 e j))
    (e3 : ∀ j k, x3 (ix2 j k) = w1 (ix2 (band0 j) k)) (e4 : ∀ j k, x4 (ix2 j k) = w1 (ix2 (band1 j) k))
    (e5 : ∀ j k, x5 (ix2 j k) = w1 (ix2 (band2 j) k)) (e6 : ∀ k, x6 (ix2 0 k) = b1 (ix1 k))
    (e7 : ∀ k, x7 (ix2 k q) = w2 (ix2 k q)) (e8 : x8 (ix2 0 0) = b2 (ix1 q)) :
    k0_pay1 (k0_pay2 x0 x1 x2 x3 x4 x5 x6 x7 x8) (ix2 r q) = score A0 A1 A2 w1 b1 w2 b2 (ix2 e q) := by
  rw [BlockValue.pay_apply]
  unfold score preAct
  simp only [e0, e1, e2, e3, e4, e5, e6, e7, e8, ix2_zero, ix2_one]

/-! ### Where each window's block sits, decided over the 125 grid points -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = t.val ∧ win0_9.index t (1 : Fin 2) = 0 :=
  (by decide +kernel : ∀ t : Fin grid0.N, _)

/-! ### Each loaded block, entry by entry, as an entry of the array its window stages -/

/-- Row `r` of point `t`'s first feature block is row `5120·t + r` of the first gathered feature array. -/
theorem rowBlk_apply (c : Dev nD) (t : Fin cfg0.N) (r : Fin 5120) (j : Fin 128) (e : Fin 640000) (he : e.val = t.val * 5120 + r.val) :
    (iblk m c 0 t : Vec Ideal S5120x128 .f32) (ix2 r j) = (V m c main_v10 : S640000x128.Idx → EReal) (ix2 e j) := by
  obtain ⟨f0, f1⟩ := idx0 t
  show V m c main_v10 (((cfg0.win 0).blk t).view.emb (ix2 r j)) = _
  refine congrArg (V m c main_v10) (funext fun a => Fin.ext ?_)
  match a with
  | ⟨0, _⟩ => show win0_0.index t (0 : Fin 2) * 5120 + 1 * r.val = e.val; rw [f0, he]; omega
  | ⟨1, _⟩ => show win0_0.index t (1 : Fin 2) * 128 + 1 * j.val = j.val; rw [f1]; omega

/-- Row `r` of point `t`'s second feature block is row `5120·t + r` of the second gathered feature array. -/
theorem colBlk_apply (c : Dev nD) (t : Fin cfg0.N) (r : Fin 5120) (j : Fin 128) (e : Fin 640000) (he : e.val = t.val * 5120 + r.val) :
    (iblk m c 1 t : Vec Ideal S5120x128 .f32) (ix2 r j) = (V m c main_v17 : S640000x128.Idx → EReal) (ix2 e j) := by
  obtain ⟨f0, f1⟩ := idx1 t
  show V m c main_v17 (((cfg0.win 1).blk t).view.emb (ix2 r j)) = _
  refine congrArg (V m c main_v17) (funext fun a => Fin.ext ?_)
  match a with
  | ⟨0, _⟩ => show win0_1.index t (0 : Fin 2) * 5120 + 1 * r.val = e.val; rw [f0, he]; omega
  | ⟨1, _⟩ => show win0_1.index t (1 : Fin 2) * 128 + 1 * j.val = j.val; rw [f1]; omega

/-- Row `r` of point `t`'s distance block is row `5120·t + r` of the distance argument. -/
theorem distBlk_apply (c : Dev nD) (t : Fin cfg0.N) (r : Fin 5120) (j : Fin 4) (e : Fin 640000) (he : e.val = t.val * 5120 + r.val) :
    (iblk m c 2 t : Vec Ideal S5120x4 .f32) (ix2 r j) = (m ((c : Thread nD τ).loc main_arg2) : S640000x4.Idx → EReal) (ix2 e j) := by
  obtain ⟨f0, f1⟩ := idx2 t
  show V m c main_arg2 (((cfg0.win 2).blk t).view.emb (ix2 r j)) = _
  rw [V_main_arg2]
  refine congrArg (m ((c : Thread nD τ).loc main_arg2)) (funext fun a => Fin.ext ?_)
  match a with
  | ⟨0, _⟩ => show win0_2.index t (0 : Fin 2) * 5120 + 1 * r.val = e.val; rw [f0, he]; omega
  | ⟨1, _⟩ => show win0_2.index t (1 : Fin 2) * 4 + 1 * j.val = j.val; rw [f1]; omega

/-- The first weight block is rows 0–127 of the weight matrix. -/
theorem w1aBlk_apply (c : Dev nD) (t : Fin cfg0.N) (j : Fin 128) (k : Fin 256) :
    (iblk m c 3 t : Vec Ideal S128x256 .f32) (ix2 j k) = (m ((c : Thread nD τ).loc main_arg3) : S260x256.Idx → EReal) (ix2 (band0 j) k) := by
  obtain ⟨f0, f1⟩ := idx3 t
  rw [← band0_apply m c j k]
  show V m c main_v18 (((cfg0.win 3).blk t).view.emb (ix2 j k)) = _
  refine congrArg (V m c main_v18) (funext fun a => Fin.ext ?_)
  match a with
  | ⟨0, _⟩ => show win0_3.index t (0 : Fin 2) * 128 + 1 * j.val = j.val; rw [f0]; omega
  | ⟨1, _⟩ => show win0_3.index t (1 : Fin 2) * 256 + 1 * k.val = k.val; rw [f1]; omega

/-- The second weight block is rows 128–255 of the weight matrix. -/
theorem w1bBlk_apply (c : Dev nD) (t : Fin cfg0.N) (j : Fin 128) (k : Fin 256) :
    (iblk m c 4 t : Vec Ideal S128x256 .f32) (ix2 j k) = (m ((c : Thread nD τ).loc main_arg3) : S260x256.Idx → EReal) (ix2 (band1 j) k) := by
  obtain ⟨f0, f1⟩ := idx4 t
  rw [← band1_apply m c j k]
  show V m c main_v19 (((cfg0.win 4).blk t).view.emb (ix2 j k)) = _
  refine congrArg (V m c main_v19) (funext fun a => Fin.ext ?_)
  match a with
  | ⟨0, _⟩ => show win0_4.index t (0 : Fin 2) * 128 + 1 * j.val = j.val; rw [f0]; omega
  | ⟨1, _⟩ => show win0_4.index t (1 : Fin 2) * 256 + 1 * k.val = k.val; rw [f1]; omega

/-- The third weight block is rows 256–259 of the weight matrix. -/
theorem w1cBlk_apply (c : Dev nD) (t : Fin cfg0.N) (j : Fin 4) (k : Fin 256) :
    (iblk m c 5 t : Vec Ideal S4x256 .f32) (ix2 j k) = (m ((c : Thread nD τ).loc main_arg3) : S260x256.Idx → EReal) (ix2 (band2 j) k) := by
  obtain ⟨f0, f1⟩ := idx5 t
  rw [← band2_apply m c j k]
  show V m c main_v20 (((cfg0.win 5).blk t).view.emb (ix2 j k)) = _
  refine congrArg (V m c main_v20) (funext fun a => Fin.ext ?_)
  match a with
  | ⟨0, _⟩ => show win0_5.index t (0 : Fin 2) * 4 + 1 * j.val = j.val; rw [f0]; omega
  | ⟨1, _⟩ => show win0_5.index t (1 : Fin 2) * 256 + 1 * k.val = k.val; rw [f1]; omega

/-- The first bias block is the first bias vector. -/
theorem b1Blk_apply (c : Dev nD) (t : Fin cfg0.N) (k : Fin 256) :
    (iblk m c 6 t : Vec Ideal S1x256 .f32) (ix2 0 k) = (m ((c : Thread nD τ).loc main_arg4) : S256.Idx → EReal) (ix1 k) := by
  obtain ⟨f0, f1⟩ := idx6 t
  rw [← bias1_apply m c k]
  show V m c main_v21 (((cfg0.win 6).blk t).view.emb (ix2 0 k)) = _
  refine congrArg (V m c main_v21) (funext fun a => Fin.ext ?_)
  match a with
  | ⟨0, _⟩ => show win0_6.index t (0 : Fin 2) * 1 + 1 * 0 = 0; rw [f0]
  | ⟨1, _⟩ => show win0_6.index t (1 : Fin 2) * 256 + 1 * k.val = k.val; rw [f1]; omega

/-- The second weight block is the second weight column. -/
theorem w2Blk_apply (c : Dev nD) (t : Fin cfg0.N) (k : Fin 256) (q : Fin 1) :
    (iblk m c 7 t : Vec Ideal S256x1 .f32) (ix2 k q) = (m ((c : Thread nD τ).loc main_arg5) : S256x1.Idx → EReal) (ix2 k q) := by
  obtain ⟨f0, f1⟩ := idx7 t
  show V m c main_arg5 (((cfg0.win 7).blk t).view.emb (ix2 k q)) = _
  rw [V_main_arg5]
  refine congrArg (m ((c : Thread nD τ).loc main_arg5)) (funext fun a => Fin.ext ?_)
  match a with
  | ⟨0, _⟩ => show win0_7.index t (0 : Fin 2) * 256 + 1 * k.val = k.val; rw [f0]; omega
  | ⟨1, _⟩ => show win0_7.index t (1 : Fin 2) * 1 + 1 * q.val = q.val; rw [f1]; omega

/-- The second bias block is the second bias. -/
theorem b2Blk_apply (c : Dev nD) (t : Fin cfg0.N) (q : Fin 1) :
    (iblk m c 8 t : Vec Ideal S1x1 .f32) (ix2 0 0) = (m ((c : Thread nD τ).loc main_arg6) : S1.Idx → EReal) (ix1 q) := by
  obtain ⟨f0, f1⟩ := idx8 t
  have hq : q = 0 := Fin.ext (by have := q.isLt; show q.val = 0; omega)
  rw [hq, ← bias2_apply m c]
  show V m c main_v22 (((cfg0.win 8).blk t).view.emb (ix2 0 0)) = _
  refine congrArg (V m c main_v22) (funext fun a => Fin.ext ?_)
  match a with
  | ⟨0, _⟩ => show win0_8.index t (0 : Fin 2) * 1 + 1 * 0 = 0; rw [f0]
  | ⟨1, _⟩ => show win0_8.index t (1 : Fin 2) * 1 + 1 * 0 = 0; rw [f1]

/-- Entry (r, q) of the block point `t` writes back lands at row `5120·t + r` of the result. -/
theorem outBlk_emb (t : Fin cfg0.N) (r : Fin 5120) (q : Fin 1) (e : Fin 640000) (he : e.val = t.val * 5120 + r.val) :
    ((cfg0.win 9).blk t).view.emb (ix2 r q) = (ix2 e q : S640000x1.Idx) := by
  obtain ⟨f0, f1⟩ := idx9 t
  refine funext fun a => Fin.ext ?_
  match a with
  | ⟨0, _⟩ => show win0_9.index t (0 : Fin 2) * 5120 + 1 * r.val = e.val; rw [f0, he]; omega
  | ⟨1, _⟩ => show win0_9.index t (1 : Fin 2) * 1 + 1 * q.val = q.val; rw [f1]; omega

/-! ### The result array -/

/-- The result array the kernel leaves: the scorer of the gathered feature arrays the region finds and the arguments. -/
abbrev scores (c : Dev nD) : S640000x1.Idx → EReal :=
  score (V m c main_v10) (V m c main_v17) (m ((c : Thread nD τ).loc main_arg2)) (m ((c : Thread nD τ).loc main_arg3))
    (m ((c : Thread nD τ).loc main_arg4)) (m ((c : Thread nD τ).loc main_arg5)) (m ((c : Thread nD τ).loc main_arg6))

/-- What point `t` writes back is block `t` of the scores. -/
theorem flushed_eq (c : Dev nD) (t : Fin cfg0.N) :
    (dats m 0 c).flushed 9 t = ((cfg0.win 9).blk t).view.read (Elt Ideal) (scores m c) := by
  rw [Value.flushed9]
  unfold out0_9
  rw [View.canon_unit_zero hz]
  simp only [View.ld_unit_zero (S := S5120x128) hz, View.ld_unit_zero (S := S5120x4) hz, View.ld_unit_zero (S := S128x256) hz,
    View.ld_unit_zero (S := S4x256) hz, View.ld_unit_zero (S := S1x256) hz, View.ld_unit_zero (S := S256x1) hz,
    View.ld_unit_zero (S := S1x1) hz]
  funext j
  obtain ⟨r, q, rfl⟩ : ∃ (r : Fin 5120) (q : Fin 1), j = ix2 r q := ⟨j 0, j 1, eq_ix2 j⟩
  have ht : t.val < 125 := Nat.lt_of_lt_of_eq t.isLt (show cfg0.N = 125 from N_0)
  have hr : r.val < 5120 := r.isLt
  let e : Fin 640000 := ⟨t.val * 5120 + r.val, by omega⟩
  show k0_pay1 (k0_pay2 (iblk m c 0 t) (iblk m c 1 t) (iblk m c 2 t) (iblk m c 3 t) (iblk m c 4 t) (iblk m c 5 t) (iblk m c 6 t) (iblk m c 7 t) (iblk m c 8 t)) (ix2 r q)
    = scores m c (((cfg0.win 9).blk t).view.emb (ix2 r q))
  rw [outBlk_emb t r q e rfl]
  exact block_eq (V m c main_v10) (V m c main_v17) (m ((c : Thread nD τ).loc main_arg2)) (m ((c : Thread nD τ).loc main_arg3))
    (m ((c : Thread nD τ).loc main_arg4)) (m ((c : Thread nD τ).loc main_arg5)) (m ((c : Thread nD τ).loc main_arg6))
    (iblk m c 0 t) (iblk m c 1 t) (iblk m c 2 t) (iblk m c 3 t) (iblk m c 4 t) (iblk m c 5 t) (iblk m c 6 t) (iblk m c 7 t) (iblk m c 8 t)
    e r q (fun j => rowBlk_apply m c t r j e rfl) (fun j => colBlk_apply m c t r j e rfl) (fun j => distBlk_apply m c t r j e rfl)
    (fun j k => w1aBlk_apply m c t j k) (fun j k => w1bBlk_apply m c t j k) (fun j k => w1cBlk_apply m c t j k)
    (fun k => b1Blk_apply m c t k) (fun k => w2Blk_apply m c t k q) (b2Blk_apply m c t q)

/-- An index of the result array is in point `t`'s block iff each coordinate is in the block's range on its axis. -/
theorem mem_blk (t : Fin cfg0.N) (i : S640000x1.Idx) :
    i ∈ ((cfg0.win 9).blk t).view.set ↔ ∀ a : Fin 2, win0_9.index t a * S5120x1.size a ≤ (i a).val ∧ (i a).val < win0_9.index t a * S5120x1.size a + S5120x1.size a := by
  show i ∈ ((View.whole main_v23).slice (win0_9.rect t)).set ↔ _
  rw [View.set_slice_whole, Rect.mem_set_unit]
  exact Iff.rfl

/-- Every edge's row lies in the block of the point that handles it: row `e` in block `e / 5120`. -/
theorem cover (i : S640000x1.Idx) : ∃ t : Fin cfg0.N, (cfg0.win 9).flush t = true ∧ i ∈ ((cfg0.win 9).blk t).view.set := by
  have h0 : (i 0).val < 640000 := (i 0).isLt
  have h1 : (i 1).val < 1 := (i 1).isLt
  have hN : cfg0.N = 125 := N_0
  have ht : (i 0).val / 5120 < cfg0.N := by rw [hN]; omega
  refine ⟨⟨(i 0).val / 5120, ht⟩, flush0_9 _, ?_⟩
  rw [mem_blk]
  obtain ⟨f0, f1⟩ := idx9 ⟨(i 0).val / 5120, ht⟩
  intro a
  match a with
  | ⟨0, _⟩ =>
    show win0_9.index ⟨(i 0).val / 5120, ht⟩ (0 : Fin 2) * 5120 ≤ (i 0).val ∧ (i 0).val < win0_9.index ⟨(i 0).val / 5120, ht⟩ (0 : Fin 2) * 5120 + 5120
    rw [f0]; show (i 0).val / 5120 * 5120 ≤ (i 0).val ∧ (i 0).val < (i 0).val / 5120 * 5120 + 5120; omega
  | ⟨1, _⟩ =>
    show win0_9.index ⟨(i 0).val / 5120, ht⟩ (1 : Fin 2) * 1 ≤ (i 1).val ∧ (i 1).val < win0_9.index ⟨(i 0).val / 5120, ht⟩ (1 : Fin 2) * 1 + 1
    rw [f1]; omega

/-- So the result array ends holding the scores. -/
theorem final (c : Dev nD) : (dats m 0 c).arrAt 9 cfg0.N = scores m c :=
  (dats m 0 c).arrAt_eq_of_cover 9 (scores m c) (fun t _ => flushed_eq m c t) cover

/-- The kernel's run, read: the result array at the scores, the arguments unchanged. -/
theorem run : θ_run defs (onTc (τ := τ) (main (F := Ideal))) ⟨m, fun _ => 0, ρ⟩ fun r => ∀ c : Dev nD,
      r.2.mem ((c : Thread nD τ).loc main_v23) = scores m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.Scores

end
-- ==== Proof.ReferenceScores.lean ====
/-
  The reference's result, entry by entry, is the edge scorer.

  The reference concatenates the two gathered feature rows and the distance row into one row of 260 entries and
  multiplies by the whole first weight matrix; the sum over the 260 products splits into the three partial sums
  of the scorer (`EdgeMlp.sum_fin260`), the concatenation read in its first 128, its next 128 and its last 4
  columns being the first endpoint's features, the second endpoint's and the distances. Its `1 / (1 + exp(-z))`
  is the logistic function on the extended reals.
-/
import proofs.«122845_j50568944943204_1_alg».proof.Proof.Gen.ReferenceIdeal.Read
import proofs.«122845_j50568944943204_1_alg».proof.Proof.EdgeMlp

noncomputable section

namespace Cert.ReferenceIdeal.Scores

open Cert.ReferenceIdeal Cert.ReferenceIdeal.Gen Cert.ReferenceIdeal.Read Idealize.ShloMosaic Idealize.ShloMosaic.ValueIdx Cert.EdgeMlp

/-- The pattern of 1.0 is the real number one. -/
theorem one_f32 : Ideal.ofBits .f32 0x3F800000#32 = 1 := by
  simp [Ideal.ofBits, Ideal.ieee, -EReal.coe_mul]; norm_num

/-- Column `j` of the first band of the concatenated row is the first endpoint's feature `j`. -/
theorem cat_band0 (x0 : (⟨S10000x128, .f32⟩ : BufTy).Contents (Elt Ideal)) (x1 : (⟨S640000x2, .i32⟩ : BufTy).Contents (Elt Ideal))
    (x2 : (⟨S640000x4, .f32⟩ : BufTy).Contents (Elt Ideal)) (e : Fin 640000) (j : Fin 128) :
    val_main_v18 (F := Ideal) x0 x1 x2 (ix2 e (band0 j)) = val_main_v10 (F := Ideal) x0 x1 (ix2 e j) := by
  unfold val_main_v18
  exact concatenate_apply_piece 1 _ _ (ix2 e (band0 j)) 0 (by show (0 : Nat) < 3; omega) S640000x128 (val_main_v10 (F := Ideal) x0 x1) rfl rfl 0 rfl
    (ix2 e j) (fun b hb => match b with | ⟨0, _⟩ => rfl | ⟨1, _⟩ => absurd rfl hb) (by show 0 + j.val = j.val; omega)

/-- Column `j` of the second band of the concatenated row is the second endpoint's feature `j`. -/
theorem cat_band1 (x0 : (⟨S10000x128, .f32⟩ : BufTy).Contents (Elt Ideal)) (x1 : (⟨S640000x2, .i32⟩ : BufTy).Contents (Elt Ideal))
    (x2 : (⟨S640000x4, .f32⟩ : BufTy).Contents (Elt Ideal)) (e : Fin 640000) (j : Fin 128) :
    val_main_v18 (F := Ideal) x0 x1 x2 (ix2 e (band1 j)) = val_main_v17 (F := Ideal) x0 x1 (ix2 e j) := by
  unfold val_main_v18
  exact concatenate_apply_piece 1 _ _ (ix2 e (band1 j)) 1 (by show (1 : Nat) < 3; omega) S640000x128 (val_main_v17 (F := Ideal) x0 x1) rfl rfl 128 rfl
    (ix2 e j) (fun b hb => match b with | ⟨0, _⟩ => rfl | ⟨1, _⟩ => absurd rfl hb) (by show 128 + j.val = 128 + j.val; rfl)

/-- Column `j` of the last band of the concatenated row is distance feature `j`. -/
theorem cat_band2 (x0 : (⟨S10000x128, .f32⟩ : BufTy).Contents (Elt Ideal)) (x1 : (⟨S640000x2, .i32⟩ : BufTy).Contents (Elt Ideal))
    (x2 : (⟨S640000x4, .f32⟩ : BufTy).Contents (Elt Ideal)) (e : Fin 640000) (j : Fin 4) :
    val_main_v18 (F := Ideal) x0 x1 x2 (ix2 e (band2 j)) = x2 (ix2 e j) := by
  unfold val_main_v18
  exact concatenate_apply_piece 1 _ _ (ix2 e (band2 j)) 2 (by show (2 : Nat) < 3; omega) S640000x4 x2 rfl rfl 256 rfl
    (ix2 e j) (fun b hb => match b with | ⟨0, _⟩ => rfl | ⟨1, _⟩ => absurd rfl hb) (by show 256 + j.val = 256 + j.val; rfl)

theorem lidx19 (e : Fin 640000) (c : Fin 256) (k : Fin 260) : lidx_main_v19 (ix2 e c) k = ix2 e k :=
  funext fun a => Fin.ext (by match a with | ⟨0, _⟩ => rfl | ⟨1, _⟩ => rfl)
theorem ridx19 (e : Fin 640000) (c : Fin 256) (k : Fin 260) : ridx_main_v19 (ix2 e c) k = ix2 k c :=
  funext fun a => Fin.ext (by match a with | ⟨0, _⟩ => rfl | ⟨1, _⟩ => rfl)
theorem lidx24 (e : Fin 640000) (q : Fin 1) (k : Fin 256) : lidx_main_v24 (ix2 e q) k = ix2 e k :=
  funext fun a => Fin.ext (by match a with | ⟨0, _⟩ => rfl | ⟨1, _⟩ => rfl)
theorem ridx24 (e : Fin 640000) (q : Fin 1) (k : Fin 256) : ridx_main_v24 (ix2 e q) k = ix2 k q :=
  funext fun a => Fin.ext (by match a with | ⟨0, _⟩ => rfl | ⟨1, _⟩ => rfl)
theorem idx2021 (e : Fin 640000) (c : Fin 256) : idx_main_v20 (idx_main_v21 (ix2 e c)) = ix1 c :=
  funext fun a => Fin.ext (by match a with | ⟨0, _⟩ => rfl)
theorem idx2526 (e : Fin 640000) (q : Fin 1) : idx_main_v25 (idx_main_v26 (ix2 e q)) = ix1 q :=
  funext fun a => Fin.ext (by match a with | ⟨0, _⟩ => have h : q.val < 1 := q.isLt; show 0 = q.val; omega)

/-- The rectified hidden layer of the reference at edge `e` and unit `c`. -/
theorem hidden_apply (x0 : (⟨S10000x128, .f32⟩ : BufTy).Contents (Elt Ideal)) (x1 : (⟨S640000x2, .i32⟩ : BufTy).Contents (Elt Ideal))
    (x2 : (⟨S640000x4, .f32⟩ : BufTy).Contents (Elt Ideal)) (x3 : (⟨S260x256, .f32⟩ : BufTy).Contents (Elt Ideal))
    (x4 : (⟨S256, .f32⟩ : BufTy).Contents (Elt Ideal)) (e : Fin 640000) (c : Fin 256) :
    val_main_v23 (F := Ideal) x0 x1 x2 x3 x4 (ix2 e c)
      = max (preAct (val_main_v10 (F := Ideal) x0 x1) (val_main_v17 (F := Ideal) x0 x1) x2 x3 x4 e c) 0 := by
  rw [val_main_v23_apply, val_main_v22_apply, val_main_v19_apply, val_main_v21_apply, val_main_v20_apply,
    val_main_call0_v0_apply, val_main_call0_cst_apply, sum_fin260]
  simp only [lidx19, ridx19, idx2021, cat_band0, cat_band1, cat_band2]
  rw [show FloatOps.ofBits (F := Ideal) .f32 0x00000000#32 = (0 : EReal) from Ideal.ofBits_zero_f32]
  rfl

/-- The reference's result array is the edge scorer of the two gathered feature arrays and the other arguments. -/
theorem result_eq (x0 : (⟨S10000x128, .f32⟩ : BufTy).Contents (Elt Ideal)) (x1 : (⟨S640000x2, .i32⟩ : BufTy).Contents (Elt Ideal))
    (x2 : (⟨S640000x4, .f32⟩ : BufTy).Contents (Elt Ideal)) (x3 : (⟨S260x256, .f32⟩ : BufTy).Contents (Elt Ideal))
    (x4 : (⟨S256, .f32⟩ : BufTy).Contents (Elt Ideal)) (x5 : (⟨S256x1, .f32⟩ : BufTy).Contents (Elt Ideal))
    (x6 : (⟨S1, .f32⟩ : BufTy).Contents (Elt Ideal)) :
    val_main_v33 (F := Ideal) x0 x1 x2 x3 x4 x5 x6
      = score (val_main_v10 (F := Ideal) x0 x1) (val_main_v17 (F := Ideal) x0 x1) x2 x3 x4 x5 x6 := by
  funext i
  obtain ⟨e, q, rfl⟩ : ∃ (e : Fin 640000) (q : Fin 1), i = ix2 e q := ⟨i 0, i 1, eq_ix2 i⟩
  rw [val_main_v33_apply, val_main_v32_apply, val_main_cst_3_apply, val_main_v31_apply, val_main_v30_apply, val_main_cst_apply,
    val_main_v29_apply, val_main_v28_apply, val_main_v27_apply, val_main_v24_apply, val_main_v26_apply, val_main_v25_apply]
  simp only [lidx24, ridx24, idx2526, hidden_apply]
  simp only [Ideal.hostDivf_def, Ideal.addf_def, Ideal.hostUnary_exp_def, Ideal.hostNegf_def, Ideal.negf_def, Ideal.ofBits_def, one_f32]
  unfold score Ideal.logistic
  rfl

end Cert.ReferenceIdeal.Scores

end
-- ==== Proof.lean ====
/-
  The edge-scoring kernel against its reference, over the extended reals.

  Both programs gather, for each of the 640000 edges, the 128 features of its two endpoints (the same host gather of
  the same arguments in both), and score the edge by a two-layer perceptron: a hidden layer of 256 rectified units over
  the 260 numbers [first endpoint's features, second endpoint's features, 4 distance features], then one logistic
  output. The reference multiplies the concatenated 260-entry row by the whole first weight matrix; the kernel, 5120
  edges per grid point, multiplies the three parts by the matching bands of rows of the matrix and adds the three
  products. A sum over 260 indices is the sum of its three bands (commutativity and associativity of addition only,
  so nothing about finiteness is used), the narrowing to sixteen bits is the identity on the extended reals, and
  `1 / (1 + exp(-z))` is the logistic function: the two results are one function of the arguments, entry by entry.

  The kernel's and its idealization's frames are the generated ones; the reference's frame is its run with the result
  dropped; the idealization rewrote nothing, so there is nothing to preserve.
-/
import proofs.«122845_j50568944943204_1_alg».proof.Defs
import proofs.«122845_j50568944943204_1_alg».proof.Proof.Gen.Kernel
import proofs.«122845_j50568944943204_1_alg».proof.Proof.Gen.Kernel.Skeleton
import proofs.«122845_j50568944943204_1_alg».proof.Proof.Gen.Kernel.Launch
import proofs.«122845_j50568944943204_1_alg».proof.Proof.Gen.Kernel.Points
import proofs.«122845_j50568944943204_1_alg».proof.Proof.Gen.Kernel.Frame
import proofs.«122845_j50568944943204_1_alg».proof.Proof.Gen.KernelIdeal
import proofs.«122845_j50568944943204_1_alg».proof.Proof.Gen.KernelIdeal.Skeleton
import proofs.«122845_j50568944943204_1_alg».proof.Proof.Gen.KernelIdeal.Launch
import proofs.«122845_j50568944943204_1_alg».proof.Proof.Gen.KernelIdeal.Points
import proofs.«122845_j50568944943204_1_alg».proof.Proof.Gen.KernelIdeal.Frame
import proofs.«122845_j50568944943204_1_alg».proof.Proof.Gen.ReferenceIdeal
import proofs.«122845_j50568944943204_1_alg».proof.Proof.Gen.Pre_finite_inputs
import proofs.«122845_j50568944943204_1_alg».proof.Proof.Gen.KernelIdeal.Value
import proofs.«122845_j50568944943204_1_alg».proof.Proof.Gen.ReferenceIdeal.Run
import proofs.«122845_j50568944943204_1_alg».proof.Proof.Gen.ReferenceIdeal.Read
import proofs.«122845_j50568944943204_1_alg».proof.Proof.KernelScores
import proofs.«122845_j50568944943204_1_alg».proof.Proof.ReferenceScores
import Idealize.ShloMosaic.Adequacy
import Idealize.ShloMosaic.Init

noncomputable section

namespace Cert.Proof

open Idealize.ShloMosaic Idealize.ShloMosaic.TcCoe Idealize.SL.Sem Idealize.ShloMosaic.StableHlo

/-- The first endpoint's gathered features, as the kernel's region finds them, are the reference's gather of the
    same arguments: the host operations that make them are the same in both programs. -/
theorem rowFeat_eq (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v10
      = Cert.ReferenceIdeal.Read.val_main_v10 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  dsimp only [Cert.KernelIdeal.Gen.V, Cert.KernelIdeal.Gen.hostOps0]; after_results; rfl

/-- The second endpoint's gathered features likewise. -/
theorem colFeat_eq (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v17
      = Cert.ReferenceIdeal.Read.val_main_v17 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  dsimp only [Cert.KernelIdeal.Gen.V, Cert.KernelIdeal.Gen.hostOps0]; after_results; rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both result arrays are the edge scorer of the same gathered features and the same arguments. -/
theorem algebraic : Cert.algebraic_KernelIdeal_ReferenceIdeal := by
  intro m ρ m' ρ' _ hagree
  refine ⟨fun c => Cert.KernelIdeal.Scores.scores m c, Cert.KernelIdeal.Scores.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v33_eq, Cert.ReferenceIdeal.Scores.result_eq, a0, a1, a2, a3, a4, a5, a6]
  show _ = Cert.EdgeMlp.score (Cert.KernelIdeal.Gen.V m c Cert.KernelIdeal.main_v10) (Cert.KernelIdeal.Gen.V m c Cert.KernelIdeal.main_v17) _ _ _ _ _
  rw [rowFeat_eq, colFeat_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
